-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg6 : FVec F S800000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S800000 .f32 := Host.absf main_arg6
  let main_cst_6 : FVec F S_ .f32 := constant S_ .f32 0x7F800000#32
  let main_v20 : FVec F S800000 .f32 := broadcastInDim S800000 ![] bcast_S_S800000 main_cst_6
  let main_v21 : IVec S800000 1 := cmpf .olt main_v19 main_v20
  let main_c_7 : IVec S_ 1 := constantI S_ 1 1#1
  let main_v22 : IVec S_ 1 := (fun x v => Host.reduce IntOp.andi x v reducesTo_S800000_S_d0 h_S_) main_v21 main_c_7
  let main_v23 : IVec S_ 1 := andi main_v18 main_v22
  main_v23

def fn {F : FTy → Type} [FloatOps F] (main_arg0 : FVec F S2x50000x128 .f32) (main_arg1 : FVec F S128x64 .f32) (main_arg2 : FVec F S128x64 .f32) (main_arg3 : FVec F S64 .f32) (main_arg4 : IVec S800000 32) (main_arg5 : IVec S800000 32) (main_arg6 : FVec F S800000 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S2x50000x128 : Shape := ⟨3, ![2, 50000, 128]⟩
abbrev S128x64 : Shape := ⟨2, ![128, 64]⟩
abbrev S64 : Shape := ⟨1, ![64]⟩
abbrev S800000 : Shape := ⟨1, ![800000]⟩
abbrev S100000x128 : Shape := ⟨2, ![100000, 128]⟩
abbrev S128x128 : Shape := ⟨2, ![128, 128]⟩
abbrev S_ : Shape := ⟨0, ![]⟩
abbrev S128 : Shape := ⟨1, ![128]⟩
abbrev S1x128 : Shape := ⟨2, ![1, 128]⟩
abbrev S10000x128 : Shape := ⟨2, ![10000, 128]⟩
abbrev S100000x64 : Shape := ⟨2, ![100000, 64]⟩
abbrev S2x50000x64 : Shape := ⟨3, ![2, 50000, 64]⟩
abbrev S50000x2x64 : Shape := ⟨3, ![50000, 2, 64]⟩
abbrev S50000x128 : Shape := ⟨2, ![50000, 128]⟩
abbrev S800000x1 : Shape := ⟨2, ![800000, 1]⟩
abbrev S800000x128 : Shape := ⟨2, ![800000, 128]⟩
abbrev S10000x64 : Shape := ⟨2, ![10000, 64]⟩

abbrev nBuf : Space → Nat
  | .hbm => 42
  | .vmem => 12
  | .smem => 0
  | _ => 0

abbrev bufTy : (tb : Table) → Fin (tcTables nBuf tb) → BufTy
  | .hbm, ⟨0, _⟩ => ⟨S2x50000x128, .f32⟩
  | .hbm, ⟨1, _⟩ => ⟨S128x64, .f32⟩
  | .hbm, ⟨2, _⟩ => ⟨S128x64, .f32⟩
  | .hbm, ⟨3, _⟩ => ⟨S64, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S100000x128, .f32⟩
  | .hbm, ⟨8, _⟩ => ⟨S128x128, .f32⟩
  | .hbm, ⟨9, _⟩ => ⟨S_, .f32⟩
  | .hbm, ⟨10, _⟩ => ⟨S64, .f32⟩
  | .hbm, ⟨11, _⟩ => ⟨S128, .f32⟩
  | .hbm, ⟨12, _⟩ => ⟨S1x128, .f32⟩
  | .hbm, ⟨13, _⟩ => ⟨S100000x128, .f32⟩
  | .hbm, ⟨14, _⟩ => ⟨S100000x64, .f32⟩
  | .hbm, ⟨15, _⟩ => ⟨S2x50000x64, .f32⟩
  | .hbm, ⟨16, _⟩ => ⟨S100000x64, .f32⟩
  | .hbm, ⟨17, _⟩ => ⟨S2x50000x64, .f32⟩
  | .hbm, ⟨18, _⟩ => ⟨S50000x2x64, .f32⟩
  | .hbm, ⟨19, _⟩ => ⟨S50000x128, .f32⟩
  | .hbm, ⟨20, _⟩ => ⟨S800000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x2x64, .f32⟩
  | .hbm, ⟨37, _⟩ => ⟨S2x50000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S2x50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S2x50000x128_S100000x128 : S2x50000x128.ShapeCasts S100000x128
  concatenates_S128x64_S128x64_S128x128_d1 : Shape.Concatenates [S128x64, S128x64] S128x128 1
  bcast_S_S64 : S_.BroadcastsInDim S64 (![] : Fin 0 → Fin S64.rank)
  concatenates_S64_S64_S128_d0 : Shape.Concatenates [S64, S64] S128 0
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S100000x128_S100000x64_0_0 : S100000x128.Slices ![0, 0] S100000x64
  shapeCasts_S100000x64_S2x50000x64 : S100000x64.ShapeCasts S2x50000x64
  slices_S100000x128_S100000x64_0_64 : S100000x128.Slices ![0, 64] S100000x64
  transposes_S2x50000x64_S50000x2x64_1_0_2 : S2x50000x64.Transposes [1, 0, 2] S50000x2x64
  shapeCasts_S50000x2x64_S50000x128 : S50000x2x64.ShapeCasts S50000x128
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000x128_S50000x2x64 : S50000x128.ShapeCasts S50000x2x64
  transposes_S50000x2x64_S2x50000x64_1_0_2 : S50000x2x64.Transposes [1, 0, 2] S2x50000x64
  shapeCasts_S2x50000x64_S100000x64 : S2x50000x64.ShapeCasts S100000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x50000x128 : Shape := ⟨3, ![2, 50000, 128]⟩
abbrev S128x64 : Shape := ⟨2, ![128, 64]⟩
abbrev S64 : Shape := ⟨1, ![64]⟩
abbrev S800000 : Shape := ⟨1, ![800000]⟩
abbrev S2x50000x64 : Shape := ⟨3, ![2, 50000, 64]⟩
abbrev S50000x2x64 : Shape := ⟨3, ![50000, 2, 64]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x1x64 : Shape := ⟨3, ![1, 1, 64]⟩

abbrev nBuf : Space → Nat
  | .hbm => 36
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S128x64, .f32⟩
  | .hbm, ⟨2, _⟩ => ⟨S128x64, .f32⟩
  | .hbm, ⟨3, _⟩ => ⟨S64, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S2x50000x64, .f32⟩
  | .hbm, ⟨8, _⟩ => ⟨S50000x2x64, .f32⟩
  | .hbm, ⟨9, _⟩ => ⟨S50000x128, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S50000x2x64, .f32⟩
  | .hbm, ⟨27, _⟩ => ⟨S2x50000x64, .f32⟩
  | .hbm, ⟨28, _⟩ => ⟨S2x50000x64, .f32⟩
  | .hbm, ⟨29, _⟩ => ⟨S1x1x64, .f32⟩
  | .hbm, ⟨30, _⟩ => ⟨S2x50000x64, .f32⟩
  | .hbm, ⟨31, _⟩ => ⟨S2x50000x64, .f32⟩
  | .hbm, ⟨32, _⟩ => ⟨S2x50000x64, .f32⟩
  | .hbm, ⟨33, _⟩ => ⟨S_, .f32⟩
  | .hbm, ⟨34, _⟩ => ⟨S2x50000x64, .f32⟩
  | .hbm, ⟨35, _⟩ => ⟨S2x50000x64, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  transposes_S2x50000x64_S50000x2x64_1_0_2 : S2x50000x64.Transposes [1, 0, 2] S50000x2x64
  shapeCasts_S50000x2x64_S50000x128 : S50000x2x64.ShapeCasts S50000x128
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000x128_S50000x2x64 : S50000x128.ShapeCasts S50000x2x64
  transposes_S50000x2x64_S2x50000x64_1_0_2 : S50000x2x64.Transposes [1, 0, 2] S2x50000x64
  bcast_S64_S1x1x64_2 : S64.BroadcastsInDim S1x1x64 (![2] : Fin 1 → Fin S1x1x64.rank)
  bcast_S1x1x64_S2x50000x64_0_1_2 : S1x1x64.BroadcastsInDim S2x50000x64 (![0, 1, 2] : Fin 3 → Fin S2x50000x64.rank)
  bcast_S_S2x50000x64 : S_.BroadcastsInDim S2x50000x64 (![] : Fin 0 → Fin S2x50000x64.rank)
  dot_S2x50000x128_S128x64_S2x50000x64_2_0_01_1_n_n_wf : DotDims.WF S2x50000x128 S128x64 S2x50000x64 [2] [0] [0, 1] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S2x50000x128_S128x64_S2x50000x64_2_0_01_1_n_n : DotDims S2x50000x128 S128x64 S2x50000x64 where
  lhsContracting := [2]
  rhsContracting := [0]
  lhsNonContracting := [0, 1]
  rhsNonContracting := [1]
  lhsBatch := []
  rhsBatch := []
  wf := dot_S2x50000x128_S128x64_S2x50000x64_2_0_01_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Mat.lean ====
/-
  What each kernel body stores, read at one element, at the ideal values.

  The first body multiplies its block of rows by the whole weight matrix and adds the one-row bias: the stored element
  (p, q) is the sum over k of x(p, k) * w(k, q), plus b(0, q); the two narrowings to bf16 are the identity on the
  extended reals and the accumulator the product starts from is zero. The second body adds its two blocks and takes
  the maximum with zero, element by element.
-/
import proofs.«115437_j6897717477506_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-! ## The product's operand indices, axis by axis -/

theorem lhs_mm_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_mm_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_mm_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_mm_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into a zero accumulator at (p, q): the sum over k of lhs(p, k) * rhs(k, q). -/
theorem matmul_zero_apply (l : FVec Ideal S10000x128 .bf16) (r : FVec Ideal S128x128 .bf16) (p : Fin 10000) (q : Fin 128) :
    matmul dot_S10000x128_S128x128_S10000x128_1_0_0_1_n_n none l r (constant S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The one-row bias broadcast down the rows, at (p, q): the bias at (0, q). -/
theorem bias_apply (b : FVec Ideal S1x128 .f32) (p : Fin 10000) (q : Fin 128) :
    broadcastTo S10000x128 b broadcasts_S1x128_S10000x128 (ix2 p q) = b (ix2 0 q) :=
  broadcastTo_apply b broadcasts_S1x128_S10000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- What the first body stores, at (p, q). -/
theorem pay0_apply (x0 : Vec Ideal S10000x128 .f32) (x1 : Vec Ideal S128x128 .f32) (x2 : Vec Ideal S1x128 .f32)
    (p : Fin 10000) (q : Fin 128) :
    k0_pay1 x0 x1 x2 (ix2 p q) = (∑ k : Fin 128, x0 (ix2 p k) * x1 (ix2 k q)) + x2 (ix2 0 q) := by
  unfold k0_pay1
  simp only [shapeCast_self]
  show (matmul (F := Ideal) dot_S10000x128_S128x128_S10000x128_1_0_0_1_n_n none (truncf (F := Ideal) .bf16 x0 bitsLt_bf16_f32) (truncf (F := Ideal) .bf16 x1 bitsLt_bf16_f32) (constant (F := Ideal) S10000x128 .f32 0x00000000#32)) (ix2 p q)
      + (broadcastTo S10000x128 x2 broadcasts_S1x128_S10000x128) (ix2 p q) = _
  rw [matmul_zero_apply, bias_apply]
  rfl

/-- What the second body stores, at any element: the maximum of the two blocks' sum and zero. -/
theorem pay1_apply (a b : Vec Ideal S10000x64 .f32) (i : S10000x64.Idx) :
    k1_pay1 a b i = max (a i + b i) 0 := by
  unfold k1_pay1
  simp only [shapeCast_self]
  show max (a i + b i) (Ideal.ofBits .f32 0x00000000#32) = _
  rw [Ideal.ofBits_zero_f32]

end Cert.KernelIdeal.Hand

end
-- ==== Proof.Region0.lean ====
/-
  The first pallas_call as one function of its three input arrays.

  Its grid has ten points; point t reads rows 10000 t .. 10000 t + 9999 of the row array (all 128 columns), the whole
  128 x 128 weight matrix and the whole one-row bias, and writes the block  rows * weights + bias  back to the same
  rows of the output. The ten blocks tile the output, so after the region the output array is
      (r, j) ↦ (Σ k, X (r, k) * W (k, j)) + B (0, j)
  of the three input arrays as the region found them.
-/
import proofs.«115437_j6897717477506_1_alg».proof.Proof.Gen.KernelIdeal.Frame
import proofs.«115437_j6897717477506_1_alg».proof.Proof.Mat
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem zz : (![0, 0] : Fin 2 → Nat) = fun _ => 0 := funext fun a => by fin_cases a <;> rfl

/-- Rows times the weight matrix, plus the one-row bias. -/
def outCat (X : FVec Ideal S100000x128 .f32) (Wc : FVec Ideal S128x128 .f32) (Bc : FVec Ideal S1x128 .f32) :
    FVec Ideal S100000x128 .f32 :=
  fun i => (∑ k : Fin 128, X (ix2 (i 0) k) * Wc (ix2 k (i 1))) + Bc (ix2 0 (i 1))

/-- The three input arrays as the region finds them, at their literal types. -/
abbrev inX (c : Dev nD) : FVec Ideal S100000x128 .f32 := V c main_v0
abbrev inW (c : Dev nD) : FVec Ideal S128x128 .f32 := V c main_v1
abbrev inBias (c : Dev nD) : FVec Ideal S1x128 .f32 := V c main_v4

/-- At point t the row window and the output window sit on block row t; the weights and the bias on block (0, 0). -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of `outCat` of the three input arrays. -/
theorem flushed0_eq (c : Dev nD) (t : Fin cfg0.N) :
    (dat0 V c).flushed 3 t = ((cfg0.win 3).blk t).view.read (Elt Ideal) (outCat (inX V c) (inW V c) (inBias V c)) := by
  show (cfg0.win 3).cut (grid0.coords t) ((dat0 V c).after 3 t) = _
  rw [after0_3]
  unfold out0_3
  rw [View.canon_unit_zero zz]
  simp only [View.ld_unit_zero (S := S10000x128) zz, View.ld_unit_zero (S := S128x128) zz, View.ld_unit_zero (S := S1x128) zz]
  obtain ⟨e0, e1, e2, e3, e4, e5, e6, e7⟩ := index0 t
  funext j
  have hp : (j 0).val < 10000 := (j 0).isLt
  have hq : (j 1).val < 128 := (j 1).isLt
  have ej : j = ix2 (⟨(j 0).val, hp⟩ : Fin 10000) (⟨(j 1).val, hq⟩ : Fin 128) := by
    funext a; match a with | ⟨0, _⟩ => rfl | ⟨1, _⟩ => rfl
  show k0_pay1 (F := Ideal) (iblk0 V c 0 t) (iblk0 V c 1 t) (iblk0 V c 2 t) j
    = outCat (inX V c) (inW V c) (inBias V c) (((cfg0.win 3).blk t).view.emb j)
  refine (congrArg (k0_pay1 (F := Ideal) (iblk0 V c 0 t) (iblk0 V c 1 t) (iblk0 V c 2 t)) ej).trans ?_
  refine (pay0_apply (iblk0 V c 0 t) (iblk0 V c 1 t) (iblk0 V c 2 t) ⟨(j 0).val, hp⟩ ⟨(j 1).val, hq⟩).trans ?_
  -- each input block read where the output's rectangle says
  have hx : ∀ k : Fin 128, ((cfg0.win 0).blk t).view.emb (ix2 (⟨(j 0).val, hp⟩ : Fin 10000) k)
      = ix2 ((((cfg0.win 3).blk t).view.emb j) 0) k := fun k => by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  have hw : ∀ k : Fin 128, ((cfg0.win 1).blk t).view.emb (ix2 k (⟨(j 1).val, hq⟩ : Fin 128))
      = ix2 k ((((cfg0.win 3).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have hb : ((cfg0.win 2).blk t).view.emb (ix2 (0 : Fin 1) (⟨(j 1).val, hq⟩ : Fin 128))
      = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  show (∑ k : Fin 128, inX V c (((cfg0.win 0).blk t).view.emb (ix2 (⟨(j 0).val, hp⟩ : Fin 10000) k))
        * inW V c (((cfg0.win 1).blk t).view.emb (ix2 k (⟨(j 1).val, hq⟩ : Fin 128))))
      + inBias V c (((cfg0.win 2).blk t).view.emb (ix2 (0 : Fin 1) (⟨(j 1).val, hq⟩ : Fin 128)))
    = (∑ k : Fin 128, inX V c (ix2 ((((cfg0.win 3).blk t).view.emb j) 0) k)
        * inW V c (ix2 k ((((cfg0.win 3).blk t).view.emb j) 1)))
      + inBias V c (ix2 (0 : Fin 1) ((((cfg0.win 3).blk t).view.emb j) 1))
  rw [hb]
  simp only [hx, hw]
  rfl

/-- An index of the output is in point t's block iff each coordinate is in the block's range on its axis. -/
theorem mem_blk0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v5).slice (win0_3.rect t)).set ↔ _
  rw [View.set_slice_whole, Rect.mem_set_unit]
  exact Iff.rfl

/-- After the region the output array is `outCat` of the three inputs: row r lies in the block of point r / 10000. -/
theorem final0 (c : Dev nD) : (dat0 V c).arrAt 3 cfg0.N = outCat (inX V c) (inW V c) (inBias V c) :=
  (dat0 V c).arrAt_eq_of_cover 3 (outCat (inX V c) (inW V c) (inBias V c)) (fun t _ => flushed0_eq V c t) fun i => by
    have hi0 : (i 0).val < 100000 := (i 0).isLt
    have hi1 : (i 1).val < 128 := (i 1).isLt
    have hN : cfg0.N = 10 := N_0
    refine ⟨⟨(i 0).val / 10000, by rw [hN]; omega⟩, flush0_3 _, ?_⟩
    obtain ⟨-, -, -, -, -, -, e6, e7⟩ := index0 ⟨(i 0).val / 10000, by rw [hN]; omega⟩
    rw [mem_blk0]
    intro a
    match a with
    | ⟨0, _⟩ =>
      show win0_3.index _ (0 : Fin 2) * 10000 ≤ (i 0).val ∧ (i 0).val < win0_3.index _ (0 : Fin 2) * 10000 + 10000
      rw [e6]; show (i 0).val / 10000 * 10000 ≤ (i 0).val ∧ (i 0).val < (i 0).val / 10000 * 10000 + 10000; omega
    | ⟨1, _⟩ =>
      show win0_3.index _ (1 : Fin 2) * 128 ≤ (i 1).val ∧ (i 1).val < win0_3.index _ (1 : Fin 2) * 128 + 128
      rw [e7]; omega

end Cert.KernelIdeal.Hand

end
-- ==== Proof.Region1.lean ====
/-
  The second pallas_call as one function of its two input arrays.

  Its grid has ten points; point t reads rows 10000 t .. 10000 t + 9999 of each input (all 64 columns), adds them,
  takes the maximum with zero and writes the block back to the same rows of the output. The ten blocks tile the
  output, so after the region the output array is  i ↦ max (a i + b i) 0  of the two input arrays as the region
  found them.
-/
import proofs.«115437_j6897717477506_1_alg».proof.Proof.Gen.KernelIdeal.Frame
import proofs.«115437_j6897717477506_1_alg».proof.Proof.Mat
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The sum of two arrays cut off below at zero, element by element. -/
def addRelu (a b : FVec Ideal S100000x64 .f32) : FVec Ideal S100000x64 .f32 := fun i => max (a i + b i) 0

/-- The two input arrays as the region finds them, at their literal type. -/
abbrev inA (c : Dev nD) : FVec Ideal S100000x64 .f32 := V c main_v27
abbrev inB (c : Dev nD) : FVec Ideal S100000x64 .f32 := V c main_v28

/-- Every window of the second call sits on block row t, block column 0, at point t. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of `addRelu` of the two input arrays. -/
theorem flushed1_eq (c : Dev nD) (t : Fin cfg1.N) :
    (dat1 V c).flushed 2 t = ((cfg1.win 2).blk t).view.read (Elt Ideal) (addRelu (inA V c) (inB V c)) := by
  show (cfg1.win 2).cut (grid1.coords t) ((dat1 V c).after 2 t) = _
  rw [after1_2]
  unfold out1_2
  rw [View.canon_unit_zero zeros2]
  simp only [View.ld_unit_zero (S := S10000x64) zeros2]
  obtain ⟨e0, e1, e2, e3, e4, e5⟩ := index1 t
  funext j
  show k1_pay1 (F := Ideal) (iblk1 V c 0 t) (iblk1 V c 1 t) j
    = max (inA V c (((cfg1.win 2).blk t).view.emb j) + inB V c (((cfg1.win 2).blk t).view.emb j)) 0
  refine (pay1_apply (iblk1 V c 0 t) (iblk1 V c 1 t) j).trans ?_
  show max (inA V c (((cfg1.win 0).blk t).view.emb j) + inB V c (((cfg1.win 1).blk t).view.emb j)) 0 = _
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  rw [h0, h1]

/-- An index of the output is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v29).slice (win1_2.rect t)).set ↔ _
  rw [View.set_slice_whole, Rect.mem_set_unit]
  exact Iff.rfl

/-- After the region the output array is `addRelu` of the two inputs: row r lies in the block of point r / 10000. -/
theorem final1 (c : Dev nD) : (dat1 V c).arrAt 2 cfg1.N = addRelu (inA V c) (inB V c) :=
  (dat1 V c).arrAt_eq_of_cover 2 (addRelu (inA V c) (inB V c)) (fun t _ => flushed1_eq V c t) fun i => by
    have hi0 : (i 0).val < 100000 := (i 0).isLt
    have hi1 : (i 1).val < 64 := (i 1).isLt
    have hN : cfg1.N = 10 := N_1
    refine ⟨⟨(i 0).val / 10000, by rw [hN]; omega⟩, flush1_2 _, ?_⟩
    obtain ⟨-, -, -, -, e4, e5⟩ := index1 ⟨(i 0).val / 10000, by rw [hN]; omega⟩
    rw [mem_blk1]
    intro a
    match a with
    | ⟨0, _⟩ =>
      show win1_2.index _ (0 : Fin 2) * 10000 ≤ (i 0).val ∧ (i 0).val < win1_2.index _ (0 : Fin 2) * 10000 + 10000
      rw [e4]; show (i 0).val / 10000 * 10000 ≤ (i 0).val ∧ (i 0).val < (i 0).val / 10000 * 10000 + 10000; omega
    | ⟨1, _⟩ =>
      show win1_2.index _ (1 : Fin 2) * 64 ≤ (i 1).val ∧ (i 1).val < win1_2.index _ (1 : Fin 2) * 64 + 64
      rw [e5]; omega

end Cert.KernelIdeal.Hand

end
-- ==== Proof.Hosts.lean ====
/-
  What the host operations around the two pallas_calls leave in the buffers the calls read, as terms of the launch
  memory and of the first call's output array.

  Before the first call: the input reshaped to rows; the two weight matrices side by side; a zero half and the bias
  side by side, as one row. Between the calls: the right half of the first call's output, reshaped there and back;
  and the left half, reshaped to batch-major features, passed through the message-passing step, and reshaped to rows.
  After the second call: its output reshaped to batch-major.
-/
import proofs.«115437_j6897717477506_1_alg».proof.Proof.Gen.KernelIdeal.Frame
import Idealize.ShloMosaic.Lib.StableHlo.Run
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

open Idealize.ShloMosaic.StableHlo

variable (m : (ℓ : Loc nD τ sig) → Buf (Elt Ideal) ℓ) (ρ : Dev nD → PrngReg)

/-- The message-passing step shared by both programs, as one function of the projected features and the three edge
    arrays: features laid out node-major, the source rows gathered (a negative index wrapped once by the node count),
    each scaled by its edge's weight, summed into the target rows, and the result laid out batch-major again. -/
def agg (xt : (⟨S2x50000x64, .f32⟩ : BufTy).Contents (Elt Ideal)) (erow ecol : (⟨S800000, .i32⟩ : BufTy).Contents (Elt Ideal))
    (eval : (⟨S800000, .f32⟩ : BufTy).Contents (Elt Ideal)) : (⟨S2x50000x64, .f32⟩ : BufTy).Contents (Elt Ideal) :=
  transpose S2x50000x64 [1, 0, 2] (shapeCast _ (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (erow)) (mulf (broadcastInDim S800000x128 ![0, 1] bcast_S800000x1_S800000x128_0_1 (broadcastInDim S800000x1 ![0] bcast_S800000_S800000x1_0 (eval))) (Host.gather gather_S50000x128_S800000x1_S800000x128_1_0_n_n_0_1_1128 (shapeCast _ (transpose S50000x2x64 [1, 0, 2] (xt) transposes_S2x50000x64_S50000x2x64_1_0_2) shapeCasts_S50000x2x64_S50000x128) (broadcastInDim S800000x1 ![0] bcast_S800000_S800000x1_0 (select (cmpi .slt (ecol) (broadcastInDim S800000 ![] bcast_S_S800000 (constantI S_ 32 0#32))) (addi (ecol) (broadcastInDim S800000 ![] bcast_S_S800000 (constantI S_ 32 50000#32))) (ecol)))))) shapeCasts_S50000x128_S50000x2x64) transposes_S50000x2x64_S2x50000x64_1_0_2

/-! ## Before the first call -/

theorem rows_eq (c : Dev nD) : V1 m ρ c main_v0
    = shapeCast _ (m ((c : Thread nD τ).loc main_arg0)) shapeCasts_S2x50000x128_S100000x128 := by
  show StableHlo.after hostOps0 (W0 m ρ c) (Proc.devRef .tc main_v0) = _
  after_results <;> rfl

theorem wcat_eq (c : Dev nD) : V1 m ρ c main_v1
    = concatenate S128x128 1 [⟨S128x64, m ((c : Thread nD τ).loc main_arg1)⟩, ⟨S128x64, m ((c : Thread nD τ).loc main_arg2)⟩] concatenates_S128x64_S128x64_S128x128_d1 := by
  show StableHlo.after hostOps0 (W0 m ρ c) (Proc.devRef .tc main_v1) = _
  after_results <;> rfl

theorem bias_eq (c : Dev nD) : V1 m ρ c main_v4
    = shapeCast _ (concatenate S128 0 [⟨S64, broadcastInDim S64 ![] bcast_S_S64 (constant (F := Ideal) S_ .f32 0x00000000#32)⟩, ⟨S64, m ((c : Thread nD τ).loc main_arg3)⟩] concatenates_S64_S64_S128_d0) shapeCasts_S128_S1x128 := by
  show StableHlo.after hostOps0 (W0 m ρ c) (Proc.devRef .tc main_v4) = _
  after_results <;> rfl

/-! ## The edge arrays reach the second stretch as launched -/

theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results <;> rfl
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results <;> rfl
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl

/-! ## Between the calls -/

theorem self_eq (c : Dev nD) : V3 m ρ c main_v27
    = shapeCast _ (shapeCast _ (extractStridedSlice S100000x64 ![0, 64] (W2 m ρ c (Proc.devRef .tc main_v5)) slices_S100000x128_S100000x64_0_64) shapeCasts_S100000x64_S2x50000x64) shapeCasts_S2x50000x64_S100000x64 := by
  show StableHlo.after hostOps1 (W2 m ρ c) (Proc.devRef .tc main_v27) = _
  after_results <;> rfl

set_option maxHeartbeats 2000000 in
theorem aggIn_eq (c : Dev nD) : V3 m ρ c main_v28
    = shapeCast _ (agg (shapeCast _ (extractStridedSlice S100000x64 ![0, 0] (W2 m ρ c (Proc.devRef .tc main_v5)) slices_S100000x128_S100000x64_0_0) shapeCasts_S100000x64_S2x50000x64)
        (W2 m ρ c (Proc.devRef .tc main_arg4)) (W2 m ρ c (Proc.devRef .tc main_arg5)) (W2 m ρ c (Proc.devRef .tc main_arg6))) shapeCasts_S2x50000x64_S100000x64 := by
  show StableHlo.after hostOps1 (W2 m ρ c) (Proc.devRef .tc main_v28) = _
  unfold agg
  after_results <;> rfl

/-! ## After the second call -/

theorem result_eq (c : Dev nD) : W5 m ρ c (Proc.devRef .tc main_v30)
    = shapeCast _ (W4 m ρ c (Proc.devRef .tc main_v29)) shapeCasts_S100000x64_S2x50000x64 := by
  show StableHlo.after hostOps2 (W4 m ρ c) (Proc.devRef .tc main_v30) = _
  after_results <;> rfl

end Cert.KernelIdeal.Hand

end
-- ==== Proof.Algebra.lean ====
/-
  The idealized kernel's result as one function of its seven inputs.

  Writing X for the input read as 100000 rows, the first call leaves  OC (r, j) = Σ k, X (r, k) * [W | Ws] (k, j) + [0 | b] (j).
  Row r = 50000 bb + n of X is row (bb, n) of the input, so the left 64 columns of OC are the projection  x W  (its bias
  half is zero and  a + 0 = a  on the extended reals) and the right 64 columns are  x Ws + b.  The host reshapes the left
  half to batch-major features and passes it through the message-passing step; reshaping there and back is the identity,
  and a reshape between (100000, 64) and (2, 50000, 64) keeps the row-major position (50000 bb + n) 64 + o.  The second
  call adds the two and cuts off at zero. So the result at (bb, n, o) is
      max ((x Ws (bb, n, o) + b o) + agg (x W) (bb, n, o)) 0.
-/
import proofs.«115437_j6897717477506_1_alg».proof.Proof.Region0
import proofs.«115437_j6897717477506_1_alg».proof.Proof.Region1
import proofs.«115437_j6897717477506_1_alg».proof.Proof.Hosts
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-- Features times a weight matrix: the sum over the 128 input features. -/
def proj (x : FVec Ideal S2x50000x128 .f32) (w : FVec Ideal S128x64 .f32) : FVec Ideal S2x50000x64 .f32 :=
  fun i => ∑ k : Fin 128, x (ix3 (i 0) (i 1) k) * w (ix2 k (i 2))

variable (x : FVec Ideal S2x50000x128 .f32) (w ws : FVec Ideal S128x64 .f32) (b : FVec Ideal S64 .f32)
  (erow ecol : (⟨S800000, .i32⟩ : BufTy).Contents (Elt Ideal)) (eval : (⟨S800000, .f32⟩ : BufTy).Contents (Elt Ideal))

/-- The input as 100000 rows. -/
abbrev rowsOf : FVec Ideal S100000x128 .f32 := shapeCast S100000x128 x shapeCasts_S2x50000x128_S100000x128
/-- The two weight matrices side by side. -/
abbrev wcatOf : FVec Ideal S128x128 .f32 :=
  concatenate S128x128 1 [⟨S128x64, w⟩, ⟨S128x64, ws⟩] concatenates_S128x64_S128x64_S128x128_d1
/-- A zero half and the bias side by side, as one row. -/
abbrev biasOf : FVec Ideal S1x128 .f32 :=
  shapeCast S1x128 (concatenate S128 0 [⟨S64, broadcastInDim S64 ![] bcast_S_S64 (constant (F := Ideal) S_ .f32 0x00000000#32)⟩, ⟨S64, b⟩] concatenates_S64_S64_S128_d0) shapeCasts_S128_S1x128

/-! ## The first call's inputs at an element -/

theorem rows_apply (bb : Fin 2) (n : Fin 50000) (k : Fin 128) (r : Fin 100000) (hr : r.val = bb.val * 50000 + n.val) :
    rowsOf x (ix2 r k) = x (ix3 bb n k) :=
  shapeCast_apply x shapeCasts_S2x50000x128_S100000x128 (ix2 r k) (ix3 bb n k) (by
    rewrite [Shape.rowMajor_val_three, Shape.rowMajor_val_two]
    show (bb.val * 50000 + n.val) * 128 + k.val = r.val * 128 + k.val
    rw [hr])

theorem wcat_left (k : Fin 128) (o : Fin 64) (j : Fin 128) (hj : j.val = o.val) : wcatOf w ws (ix2 k j) = w (ix2 k o) :=
  concatenate_pair_apply_left 1 w ws concatenates_S128x64_S128x64_S128x128_d1 (ix2 k j) rfl (ix2 k o) (fun a => match a with
    | ⟨0, _⟩ => rfl
    | ⟨1, _⟩ => hj.symm)

theorem wcat_right (k : Fin 128) (o : Fin 64) (j : Fin 128) (hj : j.val = 64 + o.val) : wcatOf w ws (ix2 k j) = ws (ix2 k o) :=
  concatenate_pair_apply_right 1 w ws concatenates_S128x64_S128x64_S128x128_d1 (ix2 k j) rfl rfl (ix2 k o) (fun a => match a with
    | ⟨0, _⟩ => fun _ => rfl
    | ⟨1, _⟩ => fun h => absurd (Fin.ext rfl) h) (by show o.val + 64 = j.val; omega)

theorem bias_left (o : Fin 64) (j : Fin 128) (hj : j.val = o.val) : biasOf b (ix2 (0 : Fin 1) j) = 0 := by
  refine (shapeCast_apply _ shapeCasts_S128_S1x128 (ix2 (0 : Fin 1) j) (ix1 j) ?_).trans ?_
  · rewrite [Shape.rowMajor_val_one, Shape.rowMajor_val_two]; show j.val = 0 * 128 + j.val; omega
  refine (concatenate_pair_apply_left 0 _ b concatenates_S64_S64_S128_d0 (ix1 j) rfl (ix1 o) (fun a => match a with
    | ⟨0, _⟩ => hj.symm)).trans ?_
  show Ideal.ofBits .f32 0x00000000#32 = 0
  exact Ideal.ofBits_zero_f32

theorem bias_right (o : Fin 64) (j : Fin 128) (hj : j.val = 64 + o.val) : biasOf b (ix2 (0 : Fin 1) j) = b (ix1 o) := by
  refine (shapeCast_apply _ shapeCasts_S128_S1x128 (ix2 (0 : Fin 1) j) (ix1 j) ?_).trans ?_
  · rewrite [Shape.rowMajor_val_one, Shape.rowMajor_val_two]; show j.val = 0 * 128 + j.val; omega
  exact concatenate_pair_apply_right 0 _ b concatenates_S64_S64_S128_d0 (ix1 j) rfl rfl (ix1 o) (fun a => match a with
    | ⟨0, _⟩ => fun h => absurd (Fin.ext rfl) h) (by show o.val + 64 = j.val; omega)

/-! ## The first call's output, column half by column half -/

theorem outCat_left (bb : Fin 2) (n : Fin 50000) (o : Fin 64) (r : Fin 100000) (j : Fin 128)
    (hr : r.val = bb.val * 50000 + n.val) (hj : j.val = o.val) :
    outCat (rowsOf x) (wcatOf w ws) (biasOf b) (ix2 r j) = proj x w (ix3 bb n o) := by
  show (∑ k : Fin 128, rowsOf x (ix2 r k) * wcatOf w ws (ix2 k j)) + biasOf b (ix2 (0 : Fin 1) j)
    = ∑ k : Fin 128, x (ix3 bb n k) * w (ix2 k o)
  rw [bias_left b o j hj, add_zero]
  refine Finset.sum_congr rfl fun k _ => ?_
  rw [rows_apply x bb n k r hr, wcat_left w ws k o j hj]

theorem outCat_right (bb : Fin 2) (n : Fin 50000) (o : Fin 64) (r : Fin 100000) (j : Fin 128)
    (hr : r.val = bb.val * 50000 + n.val) (hj : j.val = 64 + o.val) :
    outCat (rowsOf x) (wcatOf w ws) (biasOf b) (ix2 r j) = proj x ws (ix3 bb n o) + b (ix1 o) := by
  show (∑ k : Fin 128, rowsOf x (ix2 r k) * wcatOf w ws (ix2 k j)) + biasOf b (ix2 (0 : Fin 1) j)
    = (∑ k : Fin 128, x (ix3 bb n k) * ws (ix2 k o)) + b (ix1 o)
  rw [bias_right b o j hj]
  refine congrArg (· + b (ix1 o)) (Finset.sum_congr rfl fun k _ => ?_)
  rw [rows_apply x bb n k r hr, wcat_right w ws k o j hj]

/-! ## Between the calls, and the result -/

/-- The left half of the first call's output as batch-major features. -/
abbrev leftFeat : FVec Ideal S2x50000x64 .f32 :=
  shapeCast S2x50000x64 (extractStridedSlice S100000x64 ![0, 0] (outCat (rowsOf x) (wcatOf w ws) (biasOf b)) slices_S100000x128_S100000x64_0_0) shapeCasts_S100000x64_S2x50000x64
/-- The right half, reshaped there and back. -/
abbrev selfRows : FVec Ideal S100000x64 .f32 :=
  shapeCast S100000x64 (shapeCast S2x50000x64 (extractStridedSlice S100000x64 ![0, 64] (outCat (rowsOf x) (wcatOf w ws) (biasOf b)) slices_S100000x128_S100000x64_0_64) shapeCasts_S100000x64_S2x50000x64) shapeCasts_S2x50000x64_S100000x64
/-- The aggregated messages as rows. -/
abbrev aggRows : FVec Ideal S100000x64 .f32 :=
  shapeCast S100000x64 (agg (leftFeat x w ws b) erow ecol eval) shapeCasts_S2x50000x64_S100000x64

/-- What the kernel's program leaves in its result buffer. -/
def kres : FVec Ideal S2x50000x64 .f32 :=
  shapeCast S2x50000x64 (addRelu (selfRows x w ws b) (aggRows x w ws b erow ecol eval)) shapeCasts_S100000x64_S2x50000x64

/-- The layer as one formula. -/
def spec : FVec Ideal S2x50000x64 .f32 :=
  fun i => max ((proj x ws i + b (ix1 (i 2))) + agg (proj x w) erow ecol eval i) 0

theorem leftFeat_eq : leftFeat x w ws b = proj x w := by
  funext i
  obtain ⟨bb, n, o, rfl⟩ : ∃ (bb : Fin 2) (n : Fin 50000) (o : Fin 64), i = ix3 bb n o := ⟨i 0, i 1, i 2, eq_ix3 i⟩
  have hr : bb.val * 50000 + n.val < 100000 := by have := bb.isLt; have := n.isLt; omega
  have ho : o.val < 128 := by have := o.isLt; omega
  refine (shapeCast_apply _ shapeCasts_S100000x64_S2x50000x64 (ix3 bb n o) (ix2 (⟨bb.val * 50000 + n.val, hr⟩ : Fin 100000) o) ?_).trans ?_
  · rewrite [Shape.rowMajor_val_two, Shape.rowMajor_val_three]; rfl
  refine (extractStridedSlice_apply ![0, 0] _ slices_S100000x128_S100000x64_0_0 (ix2 (⟨bb.val * 50000 + n.val, hr⟩ : Fin 100000) o)
    (ix2 (⟨bb.val * 50000 + n.val, hr⟩ : Fin 100000) (⟨o.val, ho⟩ : Fin 128)) (fun a => match a with
      | ⟨0, _⟩ => by show bb.val * 50000 + n.val = 0 + (bb.val * 50000 + n.val); omega
      | ⟨1, _⟩ => by show o.val = 0 + o.val; omega)).trans ?_
  exact outCat_left x w ws b bb n o _ _ rfl rfl

theorem kres_eq : kres x w ws b erow ecol eval = spec x w ws b erow ecol eval := by
  funext i
  obtain ⟨bb, n, o, rfl⟩ : ∃ (bb : Fin 2) (n : Fin 50000) (o : Fin 64), i = ix3 bb n o := ⟨i 0, i 1, i 2, eq_ix3 i⟩
  have hr : bb.val * 50000 + n.val < 100000 := by have := bb.isLt; have := n.isLt; omega
  have ho : 64 + o.val < 128 := by have := o.isLt; omega
  have hA : selfRows x w ws b (ix2 (⟨bb.val * 50000 + n.val, hr⟩ : Fin 100000) o) = proj x ws (ix3 bb n o) + b (ix1 o) := by
    unfold selfRows
    rw [shapeCast_shapeCast]
    refine (extractStridedSlice_apply ![0, 64] _ slices_S100000x128_S100000x64_0_64 (ix2 (⟨bb.val * 50000 + n.val, hr⟩ : Fin 100000) o)
      (ix2 (⟨bb.val * 50000 + n.val, hr⟩ : Fin 100000) (⟨64 + o.val, ho⟩ : Fin 128)) (fun a => match a with
        | ⟨0, _⟩ => by show bb.val * 50000 + n.val = 0 + (bb.val * 50000 + n.val); omega
        | ⟨1, _⟩ => by show 64 + o.val = 64 + o.val; rfl)).trans ?_
    exact outCat_right x w ws b bb n o _ _ rfl rfl
  have hB : aggRows x w ws b erow ecol eval (ix2 (⟨bb.val * 50000 + n.val, hr⟩ : Fin 100000) o) = agg (proj x w) erow ecol eval (ix3 bb n o) := by
    unfold aggRows
    rw [leftFeat_eq]
    exact shapeCast_apply _ shapeCasts_S2x50000x64_S100000x64 (ix2 (⟨bb.val * 50000 + n.val, hr⟩ : Fin 100000) o) (ix3 bb n o) (by
      rewrite [Shape.rowMajor_val_two, Shape.rowMajor_val_three]; rfl)
  unfold kres
  refine (shapeCast_apply _ shapeCasts_S100000x64_S2x50000x64 (ix3 bb n o) (ix2 (⟨bb.val * 50000 + n.val, hr⟩ : Fin 100000) o) ?_).trans ?_
  · rewrite [Shape.rowMajor_val_two, Shape.rowMajor_val_three]; rfl
  show max (selfRows x w ws b (ix2 (⟨bb.val * 50000 + n.val, hr⟩ : Fin 100000) o) + aggRows x w ws b erow ecol eval (ix2 (⟨bb.val * 50000 + n.val, hr⟩ : Fin 100000) o)) 0 = _
  rw [hA, hB]
  rfl

end Cert.KernelIdeal.Hand

end
-- ==== Proof.KernelValue.lean ====
/-
  The idealized kernel's run, with its result named.

  The result buffer ends at what the last host stretch leaves: the second call's output reshaped to batch-major. The
  second call's output is  max (a + b) 0  of its two inputs; those are what the middle stretch makes of the first call's
  output and the edge arrays; the first call's output is rows times weights plus bias of what the first stretch makes of
  the arguments. Substituting, the result is the layer's formula of the seven arguments.
-/
import proofs.«115437_j6897717477506_1_alg».proof.Proof.KernelRun
import proofs.«115437_j6897717477506_1_alg».proof.Proof.Region0
import proofs.«115437_j6897717477506_1_alg».proof.Proof.Region1
import proofs.«115437_j6897717477506_1_alg».proof.Proof.Hosts
import proofs.«115437_j6897717477506_1_alg».proof.Proof.Algebra

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The first call's output array, from the arguments. -/
theorem firstOut_eq (c : Dev nD) : W2 m ρ c (Proc.devRef .tc main_v5)
    = outCat (rowsOf (m ((c : Thread nD τ).loc main_arg0))) (wcatOf (m ((c : Thread nD τ).loc main_arg1)) (m ((c : Thread nD τ).loc main_arg2))) (biasOf (m ((c : Thread nD τ).loc main_arg3))) := by
  refine (W2_arr m ρ c 3).trans ?_
  refine (final0 (V1 m ρ) c).trans ?_
  show outCat (V1 m ρ c main_v0) (V1 m ρ c main_v1) (V1 m ρ c main_v4) = _
  rw [rows_eq m ρ c, wcat_eq m ρ c, bias_eq m ρ c]

/-- The second call's output array, from the arguments. -/
theorem secondOut_eq (c : Dev nD) : W4 m ρ c (Proc.devRef .tc main_v29)
    = addRelu (selfRows (m ((c : Thread nD τ).loc main_arg0)) (m ((c : Thread nD τ).loc main_arg1)) (m ((c : Thread nD τ).loc main_arg2)) (m ((c : Thread nD τ).loc main_arg3)))
        (aggRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W4_arr m ρ c 2).trans ?_
  refine (final1 (V3 m ρ) c).trans ?_
  show addRelu (V3 m ρ c main_v27) (V3 m ρ c main_v28) = _
  rw [self_eq m ρ c, aggIn_eq m ρ c, firstOut_eq m ρ c, W2_arg4 m ρ c, W2_arg5 m ρ c, W2_arg6 m ρ c]

/-- The result buffer after the run is the layer's formula of the seven arguments. -/
theorem result_value (c : Dev nD) : W5 m ρ c (Proc.devRef .tc main_v30)
    = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [result_eq m ρ c, secondOut_eq m ρ c]
  exact kres_eq _ _ _ _ _ _ _

/-- Every weakly fair execution of the idealized kernel's @main terminates without a fault, with the result at the
    layer's formula of the arguments and the arguments unchanged. -/
theorem kernel_run : θ_run defs (onTc (τ := τ) (main (F := Ideal))) ⟨m, fun _ => 0, ρ⟩ (fun r => ∀ c : Dev nD,
      r.2.mem ((c.tc : Thread nD τ).loc main_v30) = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_value m ρ c), (h c).2⟩) (Cert.KernelIdeal.Run.run_main m ρ)

end Cert.KernelIdeal.Hand

end
-- ==== Proof.Bridge.lean ====
/-
  The idealized reference computes the same formula.

  Its two products are the projections  x W  and  x Ws  (a sum over the 128 input features each), its bias is b read at
  the output feature, its message-passing step is the kernel's, operation for operation, applied to  x W,  and its ReLU
  is the maximum with zero. So its result is  max ((x Ws + b) + agg (x W)) 0  at every element: the formula the kernel's
  composite was reduced to.
-/
import proofs.«115437_j6897717477506_1_alg».proof.Proof.Gen.ReferenceIdeal.Read
import proofs.«115437_j6897717477506_1_alg».proof.Proof.Algebra

noncomputable section

namespace Cert.ReferenceIdeal.Hand

open Cert.ReferenceIdeal Cert.ReferenceIdeal.Gen Idealize.ShloMosaic Idealize.ShloMosaic.TcCoe Idealize.ShloMosaic.ValueIdx

variable (x0 : (⟨S2x50000x128, .f32⟩ : BufTy).Contents (Elt Ideal)) (x1 x2 : (⟨S128x64, .f32⟩ : BufTy).Contents (Elt Ideal))
  (x3 : (⟨S64, .f32⟩ : BufTy).Contents (Elt Ideal)) (x4 x5 : (⟨S800000, .i32⟩ : BufTy).Contents (Elt Ideal))
  (x6 : (⟨S800000, .f32⟩ : BufTy).Contents (Elt Ideal))

/-- The reference's first product is the projection by the first weight matrix. -/
theorem proj0 : Read.val_main_v0 (F := Ideal) x0 x1 = Cert.KernelIdeal.Hand.proj x0 x1 := by
  funext i
  refine (Read.val_main_v0_apply x0 x1 i).trans (Finset.sum_congr rfl fun k _ => ?_)
  have el : Read.lidx_main_v0 i k = ix3 (i 0) (i 1) k := funext fun a => Fin.ext (by
    match a with | ⟨0, _⟩ => rfl | ⟨1, _⟩ => rfl | ⟨2, _⟩ => rfl)
  have er : Read.ridx_main_v0 i k = ix2 k (i 2) := funext fun a => Fin.ext (by
    match a with | ⟨0, _⟩ => rfl | ⟨1, _⟩ => rfl)
  rw [el, er]
  rfl

/-- Its second product is the projection by the second. -/
theorem proj18 (i : S2x50000x64.Idx) : Read.val_main_v18 (F := Ideal) x0 x2 i = Cert.KernelIdeal.Hand.proj x0 x2 i := by
  refine (Read.val_main_v18_apply x0 x2 i).trans (Finset.sum_congr rfl fun k _ => ?_)
  have el : Read.lidx_main_v18 i k = ix3 (i 0) (i 1) k := funext fun a => Fin.ext (by
    match a with | ⟨0, _⟩ => rfl | ⟨1, _⟩ => rfl | ⟨2, _⟩ => rfl)
  have er : Read.ridx_main_v18 i k = ix2 k (i 2) := funext fun a => Fin.ext (by
    match a with | ⟨0, _⟩ => rfl | ⟨1, _⟩ => rfl)
  rw [el, er]
  rfl

/-- The broadcast bias at an element is the bias at the output feature. -/
theorem bias20 (i : S2x50000x64.Idx) : Read.val_main_v20 (F := Ideal) x3 i = x3 (ix1 (i 2)) := by
  rw [Read.val_main_v20_apply, Read.val_main_v19_apply]
  exact congrArg x3 (funext fun a => Fin.ext (by match a with | ⟨0, _⟩ => rfl))

/-- The broadcast zero of the ReLU is zero. -/
theorem zero0 (i : S2x50000x64.Idx) : Read.val_main_call0_v0 (F := Ideal) i = 0 := by
  rw [Read.val_main_call0_v0_apply]
  exact Ideal.ofBits_zero_f32

/-- The reference's aggregated messages are the kernel's message-passing step applied to its first product. -/
theorem agg17 : Read.val_main_v17 (F := Ideal) x0 x1 x4 x5 x6 = Cert.KernelIdeal.Hand.agg (Read.val_main_v0 (F := Ideal) x0 x1) x4 x5 x6 := by
  unfold Read.val_main_v17 Read.val_main_v16 Read.val_main_v15 Read.val_main_v14 Read.val_main_v13 Read.val_main_cst Read.val_main_v12 Read.val_main_v11 Read.val_main_v10 Read.val_main_v9 Read.val_main_v8 Read.val_main_v7 Read.val_main_v6 Read.val_main_c_0 Read.val_main_v5 Read.val_main_v4 Read.val_main_c Read.val_main_v3 Read.val_main_v2 Read.val_main_v1 Cert.KernelIdeal.Hand.agg
  rfl

/-- The reference's result is the layer's formula. -/
theorem result_eq : Read.val_main_v23 (F := Ideal) x0 x1 x2 x3 x4 x5 x6 = Cert.KernelIdeal.Hand.spec x0 x1 x2 x3 x4 x5 x6 := by
  funext i
  show max ((Read.val_main_v18 (F := Ideal) x0 x2 i + Read.val_main_v20 (F := Ideal) x3 i) + Read.val_main_v17 (F := Ideal) x0 x1 x4 x5 x6 i)
      (Read.val_main_call0_v0 (F := Ideal) i)
    = max ((Cert.KernelIdeal.Hand.proj x0 x2 i + x3 (ix1 (i 2))) + Cert.KernelIdeal.Hand.agg (Cert.KernelIdeal.Hand.proj x0 x1) x4 x5 x6 i) 0
  rw [proj18 x0 x2 i, bias20 x3 i, zero0 i, agg17 x0 x1 x4 x5 x6, proj0 x0 x1]

end Cert.ReferenceIdeal.Hand

end
-- ==== Proof.lean ====
/-
  A graph layer: out = relu (x Ws + b + A (x W)), with A the sparse aggregation  out[row] += val * in[col]  over the edges.

  The kernel fuses the two projections into one product with the weights side by side (and a zero beside the bias),
  splits the result, runs the aggregation on the host exactly as the reference does, and adds and cuts off at zero in a
  second call. On the extended reals the narrowing to bf16 is the identity, a sum over the 128 input features does not
  depend on how it is grouped, and  a + 0 = a;  so both programs compute
      max ((x Ws + b) + agg (x W)) 0
  element by element, the aggregation being one and the same function of  x W  and the edge arrays on both sides.

  The three frames: the two kernel programs' are the generated ones; the reference's is its generated run with the
  result dropped. The idealization rewrote nothing, so the preservation claim is trivial.
-/
import proofs.«115437_j6897717477506_1_alg».proof.Defs
import proofs.«115437_j6897717477506_1_alg».proof.Proof.Gen.Kernel
import proofs.«115437_j6897717477506_1_alg».proof.Proof.Gen.Kernel.Frame
import proofs.«115437_j6897717477506_1_alg».proof.Proof.Gen.KernelIdeal
import proofs.«115437_j6897717477506_1_alg».proof.Proof.Gen.KernelIdeal.Frame
import proofs.«115437_j6897717477506_1_alg».proof.Proof.Gen.ReferenceIdeal
import proofs.«115437_j6897717477506_1_alg».proof.Proof.Gen.ReferenceIdeal.Run
import proofs.«115437_j6897717477506_1_alg».proof.Proof.Gen.ReferenceIdeal.Read
import proofs.«115437_j6897717477506_1_alg».proof.Proof.Gen.Pre_finite_inputs
import proofs.«115437_j6897717477506_1_alg».proof.Proof.KernelValue
import proofs.«115437_j6897717477506_1_alg».proof.Proof.Bridge

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the layer's formula of the (agreeing) arguments in their result buffers. -/
theorem algebraic : Cert.algebraic_KernelIdeal_ReferenceIdeal := by
  intro m ρ m' ρ' _ hagree
  refine ⟨fun c => Cert.KernelIdeal.Hand.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v23_eq]
  exact Cert.ReferenceIdeal.Hand.result_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
